-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  main_v8
-- ==== Kernel.lean ====
abbrev S2x8x2048x64 : Shape := ⟨4, ![2, 8, 2048, 64]⟩
abbrev S16x2048x64 : Shape := ⟨3, ![16, 2048, 64]⟩
abbrev S16x2048x2048 : Shape := ⟨3, ![16, 2048, 2048]⟩
abbrev S1x512x64 : Shape := ⟨3, ![1, 512, 64]⟩
abbrev S1x512x512 : Shape := ⟨3, ![1, 512, 512]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S2x8x2048x2048 : Shape := ⟨4, ![2, 8, 2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .hbm, ⟨5, _⟩ => ⟨S2x8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x512, .f32⟩
  | .local _ .vmem, ⟨5, _⟩ => ⟨S1x512x512, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S2x8x2048x64_S16x2048x64 : S2x8x2048x64.ShapeCasts S16x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  reduces_S512x64_S512 : S512x64.Reduces [1] S512
  shapeCasts_S512_S512x1 : S512.ShapeCasts S512x1
  broadcasts_S512x1_S512x512 : S512x1.Broadcasts S512x512
  transposes_S512x1_p1_0_S1x512 : S512x1.Transposes [1, 0] S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S16x2048x2048_S2x8x2048x2048 : S16x2048x2048.ShapeCasts S2x8x2048x2048
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x2048x64.size a
  hwx0_1 : ∀ i : grid0.Coords, EltTy.bits .f32 = 32 ∨ (Rect.block (s := S16x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x2048x2048.size a
  hwx0_2 : ∀ i : grid0.Coords, EltTy.bits .f32 = 32 ∨ (Rect.block (s := S16x2048x2048) S1x512x512.size (cc0_transform_2 i) (hinb0_2 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S_ : Shape := ⟨0, ![]⟩
abbrev S2x8x2048 : Shape := ⟨3, ![2, 8, 2048]⟩
abbrev S2x8x2048x1 : Shape := ⟨4, ![2, 8, 2048, 1]⟩
abbrev S2x8x2048x2048 : Shape := ⟨4, ![2, 8, 2048, 2048]⟩
abbrev S2x8x1x2048 : Shape := ⟨4, ![2, 8, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S_, .f32⟩
  | .hbm, ⟨4, _⟩ => ⟨S2x8x2048, .f32⟩
  | .hbm, ⟨5, _⟩ => ⟨S2x8x2048x1, .f32⟩
  | .hbm, ⟨6, _⟩ => ⟨S_, .f32⟩
  | .hbm, ⟨7, _⟩ => ⟨S2x8x2048x1, .f32⟩
  | .hbm, ⟨8, _⟩ => ⟨S2x8x2048x1, .f32⟩
  | .hbm, ⟨9, _⟩ => ⟨S2x8x2048x64, .f32⟩
  | .hbm, ⟨10, _⟩ => ⟨S_, .f32⟩
  | .hbm, ⟨11, _⟩ => ⟨S2x8x2048, .f32⟩
  | .hbm, ⟨12, _⟩ => ⟨S2x8x2048x1, .f32⟩
  | .hbm, ⟨13, _⟩ => ⟨S_, .f32⟩
  | .hbm, ⟨14, _⟩ => ⟨S2x8x2048x1, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x1x2048, .f32⟩
  | .hbm, ⟨20, _⟩ => ⟨S2x8x2048x2048, .f32⟩
  | .hbm, ⟨21, _⟩ => ⟨S2x8x2048x2048, .f32⟩
  | .hbm, ⟨22, _⟩ => ⟨S_, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S2x8x2048x64_S2x8x2048_d3 : S2x8x2048x64.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S_S2x8x2048x1 : S_.BroadcastsInDim S2x8x2048x1 (![] : Fin 0 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x2048x1_S2x8x1x2048_0_1_3_2 : S2x8x2048x1.Transposes [0, 1, 3, 2] S2x8x1x2048
  bcast_S2x8x1x2048_S2x8x2048x2048_0_1_2_3 : S2x8x1x2048.BroadcastsInDim S2x8x2048x2048 (![0, 1, 2, 3] : Fin 4 → Fin S2x8x2048x2048.rank)
  bcast_S_S2x8x2048x2048 : S_.BroadcastsInDim S2x8x2048x2048 (![] : Fin 0 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf

class Facts : Prop extends Facts₀ where

variable [Facts]
-- ==== Proof.LibRowOps.lean ====
/-
  Row operations of a matrix read at an index, at the ideal values, for any extents.

  A product [M, K] × [N, K] → [M, N] that contracts the SECOND axis of both operands (the right operand used transposed, no
  transpose materialised) into the zero splat is, at (p, o), the inner product of row p of the left operand and row o of the right
  one; a float sum along axis 1 of a matrix is, at p, the sum of row p; an [a] vector cast to an [a, 1] column reads the vector;
  an [a, 1] column spread over b columns reads the column. The product's record enters through four facts about its index maps,
  so the lemma serves any record whatever its name.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.LibRowOps

/-- A product [M, K] × [N, K] → [M, N] contracting axis 1 of both operands, accumulated into the zero splat and read at
    (p, o), is ∑ k, A (p, k) · B (o, k): the library's sum over the record's contraction index set, re-indexed by that
    set's one coordinate. The record enters through the four facts about its index maps that say which axes it keeps and
    which it contracts. -/
theorem matmul_rows_zero_apply {M K N : ℕ} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (A : FVec Ideal ⟨2, ![M, K]⟩ φ₁) (B : FVec Ideal ⟨2, ![N, K]⟩ φ₂) (p : Fin M) (o : Fin N) :
    FloatOps.matmul d prec A B (constant (F := Ideal) ⟨2, ![M, N]⟩ .f32 0x00000000#32) (ix2 p o)
      = ∑ k : Fin K, A (ix2 p k) * B (ix2 o k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 o k := funext fun a => Fin.ext (by
    match a with
    | ⟨0, _⟩ => exact hr0 _ _
    | ⟨1, _⟩ => exact (hr1 _ _).trans hk)
  rw [el, er]

/-- A float sum along axis 1 of an [a, b] matrix, read at row p, is the sum of that row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src (funext fun ax => Fin.ext ?_)
  match ax with
  | ⟨0, _⟩ => rfl
  | ⟨1, _⟩ => rfl

/-- An [a] vector cast to an [a, 1] column reads, at (p, u), the vector at p. -/
theorem castCol_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column spread over the b columns of an [a, b] matrix reads, at (p, c), the column at p. -/
theorem spreadCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibRowOps

end
-- ==== Proof.TileLaws.lean ====
/-
  Small laws at the ideal values for one tile of a clamped Gaussian kernel matrix.

  The tile's entry at (p, o) is a function of two rows only, row p of a left block A and row o of a right block B:
  exp (min ((A_p · B_o + h ‖A_p‖²) + h ‖B_o‖²) z) for two literal words h and z. This file names that function
  (rowPair), and reads at an index the merge of two leading axes [2, 8] into one [16] and its inverse, the two casts the
  kernel's program wraps its region in.
-/
import proofs.«147407_j75196287418964_1_alg».proof.Proof.LibRowOps
import Idealize.ShloMosaic.Lib.ValueLayout

noncomputable section

open scoped BigOperators
open Idealize.ShloMosaic Idealize.ShloMosaic.ValueIdx

namespace Cert.TileLaws

/-- The value a pair of rows a, b of length n determines: the clamped exponential of a · b + h ‖a‖² + h ‖b‖², the sums
    grouped as both programs group them, h and z the two programs' common literals. -/
def rowPair {n : ℕ} (h z : EReal) (a b : Fin n → EReal) : EReal :=
  Ideal.exp (min (((∑ d, a d * b d) + h * ∑ d, a d * a d) + h * ∑ d, b d * b d) z)

/-- A [2, 8, c, d] array cast to [16, c, d] (the two leading axes merged) reads, at (8 g + e, r, s), the operand at
    (g, e, r, s). -/
theorem mergeLead_apply {α : Type} {c d : ℕ} (x : (⟨4, ![2, 8, c, d]⟩ : Shape).Idx → α)
    (h : (⟨4, ![2, 8, c, d]⟩ : Shape).ShapeCasts ⟨3, ![16, c, d]⟩) (g : Fin 2) (e : Fin 8) (r : Fin c) (s : Fin d) :
    shapeCast ⟨3, ![16, c, d]⟩ x h (ix3 (⟨g.val * 8 + e.val, by omega⟩ : Fin 16) r s) = x (ix4 g e r s) :=
  shapeCast_apply x h _ _ (by
    rw [Shape.rowMajor_val_four, Shape.rowMajor_val_three]
    rfl)

/-- A [16, c, d] array cast to [2, 8, c, d] (the leading axis split) reads, at (g, e, r, s), the operand at
    (8 g + e, r, s). -/
theorem splitLead_apply {α : Type} {c d : ℕ} (y : (⟨3, ![16, c, d]⟩ : Shape).Idx → α)
    (h : (⟨3, ![16, c, d]⟩ : Shape).ShapeCasts ⟨4, ![2, 8, c, d]⟩) (g : Fin 2) (e : Fin 8) (r : Fin c) (s : Fin d) :
    shapeCast ⟨4, ![2, 8, c, d]⟩ y h (ix4 g e r s) = y (ix3 (⟨g.val * 8 + e.val, by omega⟩ : Fin 16) r s) :=
  shapeCast_apply y h _ _ (by
    rw [Shape.rowMajor_val_four, Shape.rowMajor_val_three]
    rfl)

end Cert.TileLaws

end
-- ==== Proof.Spec.lean ====
/-
  The specification: the clamped Gaussian kernel matrix of two batches of rows, as one function of the two argument arrays.

  For q, k of shape [2, 8, 2048, 64] the result at (g, e, r, c) is the value the pair of rows q[g, e, r, :], k[g, e, c, :]
  determines (TileLaws.rowPair: exp (min (q_r · k_c − ½‖q_r‖² − ½‖k_c‖², 0)), which is exp (−½‖q_r − k_c‖²) clamped at 1).
  The kernel computes it over the arrays with their two leading axes merged ([16, 2048, 64] → [16, 2048, 2048]) and splits
  the leading axis of the result again; gram3 is that middle function, and split_gram3_merge says that merging, applying it
  and splitting is gram4.
-/
import proofs.«147407_j75196287418964_1_alg».proof.Proof.TileLaws

noncomputable section

open scoped BigOperators
open Idealize.ShloMosaic Idealize.ShloMosaic.ValueIdx Cert.TileLaws

namespace Cert.Spec

/-- The literal −0.5 both programs scale the squared norms by, and the literal 0.0 both clamp at. -/
abbrev hw : EReal := Ideal.ofBits .f32 0xBF000000#32
abbrev zw : EReal := Ideal.ofBits .f32 0x00000000#32

/-- Over the arrays with heads merged: entry (n, r, c) from row r of Q[n] and row c of K[n]. -/
def gram3 (Q K : (⟨3, ![16, 2048, 64]⟩ : Shape).Idx → EReal) : (⟨3, ![16, 2048, 2048]⟩ : Shape).Idx → EReal :=
  fun i => rowPair hw zw (fun d : Fin 64 => Q (ix3 (i 0) (i 1) d)) (fun d : Fin 64 => K (ix3 (i 0) (i 2) d))

theorem gram3_ix3 (Q K : (⟨3, ![16, 2048, 64]⟩ : Shape).Idx → EReal) (n : Fin 16) (r c : Fin 2048) :
    gram3 Q K (ix3 n r c) = rowPair hw zw (fun d : Fin 64 => Q (ix3 n r d)) (fun d : Fin 64 => K (ix3 n c d)) := rfl

/-- Over the argument arrays: entry (g, e, r, c) from row r of q[g, e] and row c of k[g, e]. -/
def gram4 (q k : (⟨4, ![2, 8, 2048, 64]⟩ : Shape).Idx → EReal) : (⟨4, ![2, 8, 2048, 2048]⟩ : Shape).Idx → EReal :=
  fun i => rowPair hw zw (fun d : Fin 64 => q (ix4 (i 0) (i 1) (i 2) d)) (fun d : Fin 64 => k (ix4 (i 0) (i 1) (i 3) d))

theorem gram4_ix4 (q k : (⟨4, ![2, 8, 2048, 64]⟩ : Shape).Idx → EReal) (g : Fin 2) (e : Fin 8) (r c : Fin 2048) :
    gram4 q k (ix4 g e r c) = rowPair hw zw (fun d : Fin 64 => q (ix4 g e r d)) (fun d : Fin 64 => k (ix4 g e c d)) := rfl

/-- Merging the two leading axes of both arguments, taking gram3 and splitting the leading axis of the result is gram4:
    head 8 g + e of the merged arrays is head (g, e), and a row keeps its place. -/
theorem split_gram3_merge (q k : (⟨4, ![2, 8, 2048, 64]⟩ : Shape).Idx → EReal)
    (hm : (⟨4, ![2, 8, 2048, 64]⟩ : Shape).ShapeCasts ⟨3, ![16, 2048, 64]⟩)
    (hs : (⟨3, ![16, 2048, 2048]⟩ : Shape).ShapeCasts ⟨4, ![2, 8, 2048, 2048]⟩) :
    shapeCast ⟨4, ![2, 8, 2048, 2048]⟩ (gram3 (shapeCast ⟨3, ![16, 2048, 64]⟩ q hm) (shapeCast ⟨3, ![16, 2048, 64]⟩ k hm)) hs
      = gram4 q k := by
  funext i
  obtain ⟨g, e, r, c, rfl⟩ : ∃ (g : Fin 2) (e : Fin 8) (r c : Fin 2048), i = ix4 g e r c := ⟨i 0, i 1, i 2, i 3, eq_ix4 i⟩
  rw [splitLead_apply, gram3_ix3, gram4_ix4]
  congr 1 <;> funext d <;> exact mergeLead_apply _ _ g e _ d

end Cert.Spec

end
-- ==== Proof.Tile.lean ====
/-
  One tile of the kernel at the ideal values.

  The body's stored value, as a function of the two loaded blocks x0 (512 rows of the left array) and x1 (512 rows of the
  right array), read at (p, o), is the value the pair of rows x0[p, :], x1[o, :] determines (TileLaws.rowPair): the product
  contracts the second axis of both blocks, so its (p, o) entry is the inner product of the two rows; the first scaled squared
  norm is a column spread along the rows, so at (p, o) it is row p's; the second is transposed to a row and spread along the
  columns, so at (p, o) it is row o's. The narrowing of the product's operands to bf16 is the identity at the ideal values.
-/
import proofs.«147407_j75196287418964_1_alg».proof.Proof.Gen.KernelIdeal.Skeleton
import proofs.«147407_j75196287418964_1_alg».proof.Proof.Spec

noncomputable section

open scoped BigOperators
open Idealize.ShloMosaic Idealize.ShloMosaic.ValueIdx Cert.LibRowOps Cert.TileLaws Cert.Spec

namespace Cert.KernelIdeal.Tile

open Cert.KernelIdeal Cert.KernelIdeal.Gen

/-! The product's record keeps axis 0 of each operand and contracts axis 1 of each. -/

theorem dot_l0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem dot_l1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem dot_r0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem dot_r1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- The scaled squared norm of the rows of a block, as a column: at (p, u) it is h ∑ d x[p, d]². -/
theorem sqnorm_col (x : Vec Ideal S1x512x64 .f32) (p : Fin 512) (u : Fin 1) :
    mulf (broadcast S512x1 (Scalar.ofBits (F := Ideal) .f32 0xBF000000#32))
      (shapeCast S512x1 (multiReduction .add [1] S512
        (mulf (shapeCast S512x64 x shapeCasts_S1x512x64_S512x64) (shapeCast S512x64 x shapeCasts_S1x512x64_S512x64))
        0x00000000#32 reduces_S512x64_S512 (.inl rfl) rfl) shapeCasts_S512_S512x1) (ix2 p u)
      = hw * ∑ d : Fin 64, x (ix3 (0 : Fin 1) p d) * x (ix3 (0 : Fin 1) p d) := by
  show hw * shapeCast S512x1 _ shapeCasts_S512_S512x1 (ix2 p u) = _
  refine congrArg (hw * ·) ?_
  refine (castCol_apply _ _ p u).trans ?_
  refine (rowSum_apply _ _ _ _ p).trans ?_
  refine Finset.sum_congr rfl fun d _ => ?_
  show shapeCast S512x64 x shapeCasts_S1x512x64_S512x64 (ix2 p d) * shapeCast S512x64 x shapeCasts_S1x512x64_S512x64 (ix2 p d) = _
  rw [shapeCast_1ab_ab_apply]

/-- THE TILE: the stored value at (p, o) is rowPair of row p of the left block and row o of the right block. -/
theorem pay_apply (x0 x1 : Vec Ideal S1x512x64 .f32) (u : Fin 1) (p o : Fin 512) :
    (k0_pay1 (F := Ideal) x0 x1) (ix3 u p o)
      = rowPair hw zw (fun d : Fin 64 => x0 (ix3 (0 : Fin 1) p d)) (fun d : Fin 64 => x1 (ix3 (0 : Fin 1) o d)) := by
  unfold k0_pay1
  refine (shapeCast_ab_1ab_apply _ _ u p o).trans ?_
  unfold rowPair
  show Ideal.exp (min ((_ + _) + _) zw) = Ideal.exp (min ((_ + _) + _) zw)
  refine congrArg Ideal.exp (congrArg (min · zw) (congrArg₂ (· + ·) (congrArg₂ (· + ·) ?_ ?_) ?_))
  · -- the product: the inner product of the two rows
    refine (matmul_rows_zero_apply dot_S512x64_S512x64_S512x512_1_1_0_0_n_n none rfl rfl dot_l0 dot_l1 dot_r0 dot_r1 _ _ p o).trans ?_
    refine Finset.sum_congr rfl fun d _ => ?_
    show shapeCast S512x64 x0 shapeCasts_S1x512x64_S512x64 (ix2 p d) * shapeCast S512x64 x1 shapeCasts_S1x512x64_S512x64 (ix2 o d) = _
    rw [shapeCast_1ab_ab_apply, shapeCast_1ab_ab_apply]
  · -- the left rows' scaled squared norms, a column spread along each row
    refine (spreadCol_apply _ _ p o).trans ?_
    exact sqnorm_col x0 p 0
  · -- the right rows', moved to a row and spread along each column
    refine (broadcastTo_1b_ab_apply _ _ p o).trans ?_
    refine (transpose_ix2_apply _ _ (0 : Fin 1) o).trans ?_
    exact sqnorm_col x1 o 0

end Cert.KernelIdeal.Tile

end
-- ==== Proof.KernelValue.lean ====
/-
  What the kernel's program leaves in its result, at the ideal values.

  The grid is 16 × 4 × 4: point (n, a, b) loads rows 512 a … 512 a + 511 of head n of the left array and rows
  512 b … 512 b + 511 of head n of the right array, and writes back tile (a, b) of head n of the [16, 2048, 2048] result. By
  Tile.pay_apply that tile's (p, o) entry is rowPair of rows 512 a + p and 512 b + o, which is entry
  (n, 512 a + p, 512 b + o) of Spec.gram3 of the two arrays: every point writes its block of ONE function of the arrays
  (flushed_eq). The 256 tiles cover the result (the point for (n, r, c) is (n, r / 512, c / 512)), so the result array ends at
  gram3 (region_result). The two arrays the region reads are the arguments with their two leading axes merged, and the
  program's result is the region's with its leading axis split, so the program ends at Spec.gram4 of its arguments (run).
-/
import proofs.«147407_j75196287418964_1_alg».proof.Proof.Gen.KernelIdeal.Frame
import proofs.«147407_j75196287418964_1_alg».proof.Proof.Tile
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.TileLaws Cert.Spec

namespace Cert.KernelIdeal.Hand

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The index maps over the grid: the left window follows the result's head and row-tile, the right window the result's head
    and column-tile, both with their last block index 0; and the result's block indices stay in 16 × 4 × 4. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (0 : Fin 3) < 16 ∧ win0_2.index t (1 : Fin 3) < 4 ∧ win0_2.index t (2 : Fin 3) < 4 :=
  (by decide +kernel : ∀ t : Fin grid0.N, _)

/-- Every tile of every head is some point's. -/
theorem idx_onto : ∀ (q0 : Fin 16) (q1 : Fin 4) (q2 : Fin 4), ∃ t : Fin cfg0.N, win0_2.index t = ![q0.val, q1.val, q2.val] :=
  (by decide +kernel : ∀ (q0 : Fin 16) (q1 : Fin 4) (q2 : Fin 4), ∃ t : Fin grid0.N, win0_2.index t = ![q0.val, q1.val, q2.val])

/-- The two arrays the region reads, as it finds them. -/
abbrev Qa (c : Dev nD) : (⟨3, ![16, 2048, 64]⟩ : Shape).Idx → EReal := V m c main_v0
abbrev Ka (c : Dev nD) : (⟨3, ![16, 2048, 64]⟩ : Shape).Idx → EReal := V m c main_v1

/-- Row p of the left block at point t is row 512 a + p of head n of the left array, (n, a) the result's block indices. -/
theorem lblk_apply (c : Dev nD) (t : Fin cfg0.N) (p : Fin 512) (d : Fin 64) (n : Fin 16) (r : Fin 2048)
    (hn : n.val = win0_2.index t (0 : Fin 3)) (hr : r.val = win0_2.index t (1 : Fin 3) * 512 + p.val) :
    (iblk m c 0 t : Vec Ideal S1x512x64 .f32) (ix3 (0 : Fin 1) p d) = Qa m c (ix3 n r d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = n.val; omega
  | ⟨1, _⟩ => show win0_0.index t (1 : Fin 3) * 512 + 1 * p.val = r.val; omega
  | ⟨2, _⟩ => show win0_0.index t (2 : Fin 3) * 64 + 1 * d.val = d.val; omega

/-- Row o of the right block at point t is row 512 b + o of head n of the right array, (n, b) the result's head and
    column-tile. -/
theorem rblk_apply (c : Dev nD) (t : Fin cfg0.N) (o : Fin 512) (d : Fin 64) (n : Fin 16) (s : Fin 2048)
    (hn : n.val = win0_2.index t (0 : Fin 3)) (hs : s.val = win0_2.index t (2 : Fin 3) * 512 + o.val) :
    (iblk m c 1 t : Vec Ideal S1x512x64 .f32) (ix3 (0 : Fin 1) o d) = Ka m c (ix3 n s d) := by
  obtain ⟨-, -, -, e0, e1, e2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = n.val; omega
  | ⟨1, _⟩ => show win0_1.index t (1 : Fin 3) * 512 + 1 * o.val = s.val; omega
  | ⟨2, _⟩ => show win0_1.index t (2 : Fin 3) * 64 + 1 * d.val = d.val; omega

/-- WHAT POINT t WRITES BACK is its block of gram3 of the two arrays. -/
theorem flushed_eq (c : Dev nD) (t : Fin cfg0.N) :
    (dats m 0 c).flushed 2 t = ((cfg0.win 2).blk t).view.read (Elt Ideal) (gram3 (Qa m c) (Ka m c)) := by
  show (cfg0.win 2).cut (grid0.coords t) ((dats m 0 c).after 2 t) = _
  rw [after0_2]
  unfold out0_2
  rw [View.canon_unit_zero hz]
  simp only [View.ld_unit_zero (S := S1x512x64) hz]
  obtain ⟨-, -, -, -, -, -, b0, b1, b2⟩ := idx_facts t
  refine funext fun (j : S1x512x512.Idx) => ?_
  obtain ⟨u, p, o, rfl⟩ : ∃ (u : Fin 1) (p o : Fin 512), j = ix3 u p o := ⟨j 0, j 1, j 2, eq_ix3 j⟩
  show k0_pay1 (F := Ideal) (iblk m c 0 t) (iblk m c 1 t) (ix3 u p o)
    = gram3 (Qa m c) (Ka m c) (((cfg0.win 2).blk t).view.emb (ix3 u p o))
  have hemb : ((cfg0.win 2).blk t).view.emb (ix3 u p o)
      = ix3 (⟨win0_2.index t (0 : Fin 3), b0⟩ : Fin 16) (⟨win0_2.index t (1 : Fin 3) * 512 + p.val, by omega⟩ : Fin 2048)
          (⟨win0_2.index t (2 : Fin 3) * 512 + o.val, by omega⟩ : Fin 2048) := by
    funext a
    apply Fin.ext
    match a with
    | ⟨0, _⟩ => show win0_2.index t (0 : Fin 3) * 1 + 1 * u.val = win0_2.index t (0 : Fin 3); omega
    | ⟨1, _⟩ => show win0_2.index t (1 : Fin 3) * 512 + 1 * p.val = win0_2.index t (1 : Fin 3) * 512 + p.val; omega
    | ⟨2, _⟩ => show win0_2.index t (2 : Fin 3) * 512 + 1 * o.val = win0_2.index t (2 : Fin 3) * 512 + o.val; omega
  rw [hemb, gram3_ix3, Tile.pay_apply]
  exact congrArg₂ (rowPair hw zw) (funext fun d => lblk_apply m c t p d _ _ rfl rfl)
    (funext fun d => rblk_apply m c t o d _ _ rfl rfl)

/-- An index of the result is in point t's block iff each coordinate is in the block's range on its axis. -/
theorem mem_blk (t : Fin cfg0.N) (i : S16x2048x2048.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v2).slice (win0_2.rect t)).set ↔ _
  rw [View.set_slice_whole, Rect.mem_set_unit]
  exact Iff.rfl

/-- The tiles cover the result: (n, r, c) lies in the block of the point with block indices (n, r / 512, c / 512). -/
theorem cover (i : S16x2048x2048.Idx) : ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 2048 := (i 2).isLt
  obtain ⟨t, ht⟩ := idx_onto ⟨(i 0).val, h0⟩ ⟨(i 1).val / 512, by omega⟩ ⟨(i 2).val / 512, by omega⟩
  have q0 : win0_2.index t (0 : Fin 3) = (i 0).val := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- THE REGION'S RESULT after the run: gram3 of the two arrays it read. -/
theorem region_result (c : Dev nD) : (dats m 0 c).arrAt 2 cfg0.N = gram3 (Qa m c) (Ka m c) :=
  (dats m 0 c).arrAt_eq_of_cover 2 (gram3 (Qa m c) (Ka m c)) (fun t _ => flushed_eq m c t) cover

/-- The left array the region reads is the first argument with its two leading axes merged. -/
theorem Qa_eq (c : Dev nD) :
    Qa m c = shapeCast S16x2048x64 (m ((c : Thread nD τ).loc main_arg0)) shapeCasts_S2x8x2048x64_S16x2048x64 := by
  show StableHlo.after hostOps0 (fun b => m (c, b)) (Proc.devRef .tc main_v0) = _
  after_results
  rfl

/-- The right array is the second argument, merged the same way. -/
theorem Ka_eq (c : Dev nD) :
    Ka m c = shapeCast S16x2048x64 (m ((c : Thread nD τ).loc main_arg1)) shapeCasts_S2x8x2048x64_S16x2048x64 := by
  show StableHlo.after hostOps0 (fun b => m (c, b)) (Proc.devRef .tc main_v1) = _
  after_results
  rfl

/-- THE PROGRAM'S RESULT: the region's result with its leading axis split, which is gram4 of the two arguments. -/
theorem result_eq (c : Dev nD) :
    Pipeline.afterTail₀ cfgs (dats m) 0 (V0 m) [hostOps1] c main_v3
      = gram4 (m ((c : Thread nD τ).loc main_arg0)) (m ((c : Thread nD τ).loc main_arg1)) := by
  unfold Pipeline.afterTail₀
  show StableHlo.after hostOps1 _ (Proc.devRef .tc main_v3) = _
  after_results
  rw [← split_gram3_merge _ _ shapeCasts_S2x8x2048x64_S16x2048x64 shapeCasts_S16x2048x2048_S2x8x2048x2048, ← Qa_eq, ← Ka_eq,
    ← region_result]
  exact congrArg (fun y => shapeCast S2x8x2048x2048 y shapeCasts_S16x2048x2048_S2x8x2048x2048)
    (Pipeline.withArrays_arr spec0 launch0.win.arr_inj c _ _ 2)

/-- The run, read: the result at gram4 of the arguments, the arguments unchanged. -/
theorem run : θ_run defs (onTc (τ := τ) (main (F := Ideal))) ⟨m, fun _ => 0, ρ⟩ fun r => ∀ c : Dev nD,
      r.2.mem ((c : Thread nD τ).loc main_v3) = gram4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference computes the specification.

  Read one operation at a time, the reference's result at (g, e, r, c) is
  exp (min ((∑ d q[g,e,r,d] k[g,e,c,d] + h (0 + ∑ d q[g,e,r,d]²)) + h (0 + ∑ d k[g,e,c,d]²)) z): the contraction of the two
  arguments over their last axis with the two leading axes as batch axes, the two squared norms summed from a zero
  initial value, scaled, kept as a last unit axis, the second one moved to the row position by a transpose, and both
  spread over the [2048, 2048] matrix. With 0 + s = s that is Spec.gram4.
-/
import proofs.«147407_j75196287418964_1_alg».proof.Proof.Gen.ReferenceIdeal.Read
import proofs.«147407_j75196287418964_1_alg».proof.Proof.Spec

noncomputable section

open scoped BigOperators
open Idealize.ShloMosaic Idealize.ShloMosaic.ValueIdx Cert.TileLaws Cert.Spec

namespace Cert.ReferenceIdeal.RefValue

open Cert.ReferenceIdeal Cert.ReferenceIdeal.Read

/-- The contraction's left operand index at output (g, e, r, c) and contraction coordinate d is (g, e, r, d). -/
theorem lrow (g : Fin 2) (e : Fin 8) (r c : Fin 2048) (d : Fin 64) : lidx_main_v10 (ix4 g e r c) d = ix4 g e r d :=
  funext fun a => Fin.ext (by match a with | ⟨0, _⟩ => rfl | ⟨1, _⟩ => rfl | ⟨2, _⟩ => rfl | ⟨3, _⟩ => rfl)

/-- Its right operand index is (g, e, c, d). -/
theorem rrow (g : Fin 2) (e : Fin 8) (r c : Fin 2048) (d : Fin 64) : ridx_main_v10 (ix4 g e r c) d = ix4 g e c d :=
  funext fun a => Fin.ext (by match a with | ⟨0, _⟩ => rfl | ⟨1, _⟩ => rfl | ⟨2, _⟩ => rfl | ⟨3, _⟩ => rfl)

/-- The first squared norm spread to (g, e, r, c) sums row (g, e, r). -/
theorem qrow (g : Fin 2) (e : Fin 8) (r c : Fin 2048) (d : Fin 64) :
    idx_main_v1 (idx_main_v2 (idx_main_v11 (ix4 g e r c))) d = ix4 g e r d :=
  funext fun a => Fin.ext (by match a with | ⟨0, _⟩ => rfl | ⟨1, _⟩ => rfl | ⟨2, _⟩ => rfl | ⟨3, _⟩ => rfl)

/-- The second, transposed and spread, sums row (g, e, c). -/
theorem krow (g : Fin 2) (e : Fin 8) (r c : Fin 2048) (d : Fin 64) :
    idx_main_v6 (idx_main_v7 (idx_main_v13 (idx_main_v14 (ix4 g e r c)))) d = ix4 g e c d :=
  funext fun a => Fin.ext (by match a with | ⟨0, _⟩ => rfl | ⟨1, _⟩ => rfl | ⟨2, _⟩ => rfl | ⟨3, _⟩ => rfl)

/-- The reference's last stage is the specification of its two arguments. -/
theorem result_eq (x0 x1 : (⟨S2x8x2048x64, .f32⟩ : BufTy).Contents (Elt Ideal)) :
    val_main_v18 (F := Ideal) x0 x1 = gram4 x0 x1 := by
  funext i
  obtain ⟨g, e, r, c, rfl⟩ : ∃ (g : Fin 2) (e : Fin 8) (r c : Fin 2048), i = ix4 g e r c := ⟨i 0, i 1, i 2, i 3, eq_ix4 i⟩
  rw [gram4_ix4, val_main_v18_apply, val_main_v17_apply, val_main_v15_apply, val_main_v12_apply, val_main_v10_apply,
    val_main_v11_apply, val_main_v4_apply, val_main_v3_apply, val_main_cst_0_apply, val_main_v2_apply, val_main_v1_apply,
    val_main_cst_apply, val_main_v14_apply, val_main_v13_apply, val_main_v9_apply, val_main_v8_apply, val_main_cst_2_apply,
    val_main_v7_apply, val_main_v6_apply, val_main_cst_1_apply, val_main_v16_apply, val_main_cst_3_apply]
  simp only [val_main_v0_apply, val_main_v5_apply, lrow, rrow, qrow, krow, Ideal.hostUnary_exp_def, Ideal.minimumf_def,
    Ideal.addf_def, Ideal.mulf_def, Ideal.ofBits_def]
  unfold rowPair
  rw [Ideal.ofBits_zero_f32, zero_add, zero_add, show zw = (0 : EReal) from Ideal.ofBits_zero_f32]

end Cert.ReferenceIdeal.RefValue

end
-- ==== Proof.lean ====
/-
  The kernel computes, for two arrays q, k of shape [2, 8, 2048, 64], the matrix exp (min (q_r · k_c − ½‖q_r‖² − ½‖k_c‖², 0)) per
  head, tile by tile; the reference computes the same expression over the whole arrays. At the ideal values both are one
  function of the arguments, Spec.gram4: every entry depends on one row of q and one row of k only (TileLaws.rowPair), the
  kernel's tiles cover the result (KernelValue), the reference's contraction and sums read those same rows (RefValue), and
  the sums are grouped alike on both sides, so no law beyond 0 + s = s is needed and the inputs' finiteness is never used.
  The idealization rewrote nothing, so preserves is trivial; the three frames are the generated runs.
-/
import proofs.«147407_j75196287418964_1_alg».proof.Defs
import proofs.«147407_j75196287418964_1_alg».proof.Proof.Gen.Kernel
import proofs.«147407_j75196287418964_1_alg».proof.Proof.Gen.Kernel.Skeleton
import proofs.«147407_j75196287418964_1_alg».proof.Proof.Gen.Kernel.Launch
import proofs.«147407_j75196287418964_1_alg».proof.Proof.Gen.Kernel.Points
import proofs.«147407_j75196287418964_1_alg».proof.Proof.Gen.Kernel.Frame
import proofs.«147407_j75196287418964_1_alg».proof.Proof.Gen.KernelIdeal
import proofs.«147407_j75196287418964_1_alg».proof.Proof.Gen.KernelIdeal.Skeleton
import proofs.«147407_j75196287418964_1_alg».proof.Proof.Gen.KernelIdeal.Launch
import proofs.«147407_j75196287418964_1_alg».proof.Proof.Gen.KernelIdeal.Points
import proofs.«147407_j75196287418964_1_alg».proof.Proof.Gen.KernelIdeal.Frame
import proofs.«147407_j75196287418964_1_alg».proof.Proof.Gen.ReferenceIdeal
import proofs.«147407_j75196287418964_1_alg».proof.Proof.Gen.Pre_finite_inputs
import proofs.«147407_j75196287418964_1_alg».proof.Proof.Gen.ReferenceIdeal.Run
import proofs.«147407_j75196287418964_1_alg».proof.Proof.Gen.ReferenceIdeal.Read
import proofs.«147407_j75196287418964_1_alg».proof.Proof.KernelValue
import proofs.«147407_j75196287418964_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at Spec.gram4 of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
